-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S1024x2048x16 : Shape := ⟨3, ![1024, 2048, 16]⟩
abbrev S2048x16 : Shape := ⟨2, ![2048, 16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x2048x16 : S_.BroadcastsInDim S1024x2048x16 (![] : Fin 0 → Fin S1024x2048x16.rank)
  reducesTo_S1024x2048x16_S_d0_1_2 : S1024x2048x16.ReducesTo [0, 1, 2] S_
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S65536x1024 .f32) (main_arg1 : IVec S65536 32) (main_arg2 : FVec F S1024x2048x16 .f32) (main_arg3 : FVec F S2048x16 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x2048x16 .f32 := Host.absf main_arg2
  let main_cst_0 : FVec F S_ .f32 := constant S_ .f32 0x7F800000#32
  let main_v5 : FVec F S1024x2048x16 .f32 := broadcastInDim S1024x2048x16 ![] bcast_S_S1024x2048x16 main_cst_0
  let main_v6 : IVec S1024x2048x16 1 := cmpf .olt main_v4 main_v5
  let main_c_1 : IVec S_ 1 := constantI S_ 1 1#1
  let main_v7 : IVec S_ 1 := (fun x v => Host.reduce IntOp.andi x v reducesTo_S1024x2048x16_S_d0_1_2 h_S_) main_v6 main_c_1
  let main_v8 : IVec S_ 1 := andi main_v3 main_v7
  let main_v9 : FVec F S2048x16 .f32 := Host.absf main_arg3
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  main_v13
-- ==== Kernel.lean ====
abbrev S65536x1024 : Shape := ⟨2, ![65536, 1024]⟩
abbrev S65536 : Shape := ⟨1, ![65536]⟩
abbrev S1024x2048x16 : Shape := ⟨3, ![1024, 2048, 16]⟩
abbrev S2048x16 : Shape := ⟨2, ![2048, 16]⟩
abbrev S16x4096x1024 : Shape := ⟨3, ![16, 4096, 1024]⟩
abbrev S16x1024x2048 : Shape := ⟨3, ![16, 1024, 2048]⟩
abbrev S16x2048 : Shape := ⟨2, ![16, 2048]⟩
abbrev S16x1x2048 : Shape := ⟨3, ![16, 1, 2048]⟩
abbrev S16x4096x2048 : Shape := ⟨3, ![16, 4096, 2048]⟩
abbrev S1x512x1024 : Shape := ⟨3, ![1, 512, 1024]⟩
abbrev S1x1024x2048 : Shape := ⟨3, ![1, 1024, 2048]⟩
abbrev S1x1x2048 : Shape := ⟨3, ![1, 1, 2048]⟩
abbrev S1x512x2048 : Shape := ⟨3, ![1, 512, 2048]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S65536x2048 : Shape := ⟨2, ![65536, 2048]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1024x2048x16, .f32⟩
  | .hbm, ⟨3, _⟩ => ⟨S2048x16, .f32⟩
  | .hbm, ⟨4, _⟩ => ⟨S16x4096x1024, .f32⟩
  | .hbm, ⟨5, _⟩ => ⟨S16x1024x2048, .f32⟩
  | .hbm, ⟨6, _⟩ => ⟨S16x2048, .f32⟩
  | .hbm, ⟨7, _⟩ => ⟨S16x1x2048, .f32⟩
  | .hbm, ⟨8, _⟩ => ⟨S16x4096x2048, .f32⟩
  | .hbm, ⟨9, _⟩ => ⟨S65536x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S65536x1024_S16x4096x1024 : S65536x1024.ShapeCasts S16x4096x1024
  transposes_S1024x2048x16_S16x1024x2048_2_0_1 : S1024x2048x16.Transposes [2, 0, 1] S16x1024x2048
  transposes_S2048x16_S16x2048_1_0 : S2048x16.Transposes [1, 0] S16x2048
  bcast_S16x2048_S16x1x2048_0_2 : S16x2048.BroadcastsInDim S16x1x2048 (![0, 2] : Fin 2 → Fin S16x1x2048.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S16x4096x2048_S65536x2048 : S16x4096x2048.ShapeCasts S65536x2048
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x4096x1024.size a
  hwx0_0 : ∀ i : grid0.Coords, EltTy.bits .f32 = 32 ∨ (Rect.block (s := S16x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x1024x2048.size a
  hwx0_1 : ∀ i : grid0.Coords, EltTy.bits .f32 = 32 ∨ (Rect.block (s := S16x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .f32 = 32 ∨ (Rect.block (s := S16x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x4096x2048.size a
  hwx0_3 : ∀ i : grid0.Coords, EltTy.bits .f32 = 32 ∨ (Rect.block (s := S16x4096x2048) S1x512x2048.size (cc0_transform_3 i) (hinb0_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S1024x2048x16 : Shape := ⟨3, ![1024, 2048, 16]⟩
abbrev S2048x16 : Shape := ⟨2, ![2048, 16]⟩
abbrev S16x4096x1024 : Shape := ⟨3, ![16, 4096, 1024]⟩
abbrev S16x1024x2048 : Shape := ⟨3, ![16, 1024, 2048]⟩
abbrev S16x2048 : Shape := ⟨2, ![16, 2048]⟩
abbrev S16x1x2048 : Shape := ⟨3, ![16, 1, 2048]⟩
abbrev S16x4096x2048 : Shape := ⟨3, ![16, 4096, 2048]⟩
abbrev S_ : Shape := ⟨0, ![]⟩
abbrev S65536x2048 : Shape := ⟨2, ![65536, 2048]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1024x2048x16, .f32⟩
  | .hbm, ⟨3, _⟩ => ⟨S2048x16, .f32⟩
  | .hbm, ⟨4, _⟩ => ⟨S16x4096x1024, .f32⟩
  | .hbm, ⟨5, _⟩ => ⟨S16x1024x2048, .f32⟩
  | .hbm, ⟨6, _⟩ => ⟨S16x2048, .f32⟩
  | .hbm, ⟨7, _⟩ => ⟨S16x1x2048, .f32⟩
  | .hbm, ⟨8, _⟩ => ⟨S16x4096x2048, .f32⟩
  | .hbm, ⟨9, _⟩ => ⟨S16x4096x2048, .f32⟩
  | .hbm, ⟨10, _⟩ => ⟨S16x4096x2048, .f32⟩
  | .hbm, ⟨11, _⟩ => ⟨S16x4096x2048, .f32⟩
  | .hbm, ⟨12, _⟩ => ⟨S16x4096x2048, .f32⟩
  | .hbm, ⟨13, _⟩ => ⟨S_, .f32⟩
  | .hbm, ⟨14, _⟩ => ⟨S16x4096x2048, .f32⟩
  | .hbm, ⟨15, _⟩ => ⟨S16x4096x2048, .f32⟩
  | .hbm, ⟨16, _⟩ => ⟨S_, .f32⟩
  | .hbm, ⟨17, _⟩ => ⟨S16x4096x2048, .f32⟩
  | .hbm, ⟨18, _⟩ => ⟨S16x4096x2048, .f32⟩
  | .hbm, ⟨19, _⟩ => ⟨S16x4096x2048, .f32⟩
  | .hbm, ⟨20, _⟩ => ⟨S65536x2048, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  shapeCasts_S65536x1024_S16x4096x1024 : S65536x1024.ShapeCasts S16x4096x1024
  transposes_S1024x2048x16_S16x1024x2048_2_0_1 : S1024x2048x16.Transposes [2, 0, 1] S16x1024x2048
  transposes_S2048x16_S16x2048_1_0 : S2048x16.Transposes [1, 0] S16x2048
  bcast_S16x2048_S16x1x2048_0_2 : S16x2048.BroadcastsInDim S16x1x2048 (![0, 2] : Fin 2 → Fin S16x1x2048.rank)
  bcast_S16x1x2048_S16x4096x2048_0_1_2 : S16x1x2048.BroadcastsInDim S16x4096x2048 (![0, 1, 2] : Fin 3 → Fin S16x4096x2048.rank)
  bcast_S_S16x4096x2048 : S_.BroadcastsInDim S16x4096x2048 (![] : Fin 0 → Fin S16x4096x2048.rank)
  shapeCasts_S16x4096x2048_S65536x2048 : S16x4096x2048.ShapeCasts S65536x2048
  dot_S16x4096x1024_S16x1024x2048_S16x4096x2048_2_1_1_2_0_0_wf : DotDims.WF S16x4096x1024 S16x1024x2048 S16x4096x2048 [2] [1] [1] [2] [0] [0]

variable [Facts₀]

def dot_S16x4096x1024_S16x1024x2048_S16x4096x2048_2_1_1_2_0_0 : DotDims S16x4096x1024 S16x1024x2048 S16x4096x2048 where
  lhsContracting := [2]
  rhsContracting := [1]
  lhsNonContracting := [1]
  rhsNonContracting := [2]
  lhsBatch := [0]
  rhsBatch := [0]
  wf := dot_S16x4096x1024_S16x1024x2048_S16x4096x2048_2_1_1_2_0_0_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.GroupedSilu.lean ====
/-
  The function both programs compute, on the extended reals.

  For sixteen experts, each with 4096 token rows, an input width of 1024 and an output width of 2048:

      y(e, n, o) = (∑ₖ X(e, n, k) · W(e, k, o)) + B(e, 0, o),        result(e, n, o) = y · logistic y,

  where `logistic y = 1 / (1 + exp (-y))` with the conventions of the extended reals at the infinities. Nothing here
  needs the entries to be finite: the two programs spell this one expression, term for term.
-/
import Idealize.ShloMosaic.PureOps.Ideal.Laws
import Idealize.ShloMosaic.Lib.ValueIdx

noncomputable section

namespace Cert.GroupedSilu

open Idealize.ShloMosaic Idealize.ShloMosaic.ValueIdx

/-- `y · logistic y`. -/
def silu (y : EReal) : EReal := y * Ideal.logistic y

/-- One entry of the grouped product with its bias added, before the activation. -/
def pre {E T K O : Nat} (X : FVec Ideal ⟨3, ![E, T, K]⟩ .f32) (W : FVec Ideal ⟨3, ![E, K, O]⟩ .f32)
    (B : FVec Ideal ⟨3, ![E, 1, O]⟩ .f32) (e : Fin E) (n : Fin T) (o : Fin O) : EReal :=
  (∑ k : Fin K, X (ix3 e n k) * W (ix3 e k o)) + B (ix3 e (0 : Fin 1) o)

/-- The grouped product, bias and activation as one function of the three arrays, index by index. -/
def gemmSilu {E T K O : Nat} (X : FVec Ideal ⟨3, ![E, T, K]⟩ .f32) (W : FVec Ideal ⟨3, ![E, K, O]⟩ .f32)
    (B : FVec Ideal ⟨3, ![E, 1, O]⟩ .f32) : FVec Ideal ⟨3, ![E, T, O]⟩ .f32 :=
  fun j => silu (pre X W B (j 0) (j 1) (j 2))

theorem gemmSilu_ix3 {E T K O : Nat} (X : FVec Ideal ⟨3, ![E, T, K]⟩ .f32) (W : FVec Ideal ⟨3, ![E, K, O]⟩ .f32)
    (B : FVec Ideal ⟨3, ![E, 1, O]⟩ .f32) (e : Fin E) (n : Fin T) (o : Fin O) :
    gemmSilu X W B (ix3 e n o) = silu (pre X W B e n o) := rfl

/-- The whole computation from the program's arguments: the `[65536, 1024]` token rows split into sixteen groups of 4096, the
    `[1024, 2048, 16]` weights and the `[2048, 16]` bias with the expert axis moved to the front (the bias as one row per
    expert), the grouped product with bias and activation, and the sixteen groups laid end to end again. -/
def moe (h0 : (⟨2, ![65536, 1024]⟩ : Shape).ShapeCasts ⟨3, ![16, 4096, 1024]⟩)
    (h1 : (⟨3, ![1024, 2048, 16]⟩ : Shape).Transposes [2, 0, 1] ⟨3, ![16, 1024, 2048]⟩)
    (h2 : (⟨2, ![2048, 16]⟩ : Shape).Transposes [1, 0] ⟨2, ![16, 2048]⟩)
    (h3 : (⟨2, ![16, 2048]⟩ : Shape).BroadcastsInDim ⟨3, ![16, 1, 2048]⟩ (![0, 2] : Fin 2 → Fin 3))
    (h4 : (⟨3, ![16, 4096, 2048]⟩ : Shape).ShapeCasts ⟨2, ![65536, 2048]⟩)
    (x : FVec Ideal ⟨2, ![65536, 1024]⟩ .f32) (w : FVec Ideal ⟨3, ![1024, 2048, 16]⟩ .f32) (b : FVec Ideal ⟨2, ![2048, 16]⟩ .f32) :
    FVec Ideal ⟨2, ![65536, 2048]⟩ .f32 :=
  shapeCast ⟨2, ![65536, 2048]⟩
    (gemmSilu (shapeCast ⟨3, ![16, 4096, 1024]⟩ x h0) (transpose ⟨3, ![16, 1024, 2048]⟩ [2, 0, 1] w h1)
      (broadcastInDim ⟨3, ![16, 1, 2048]⟩ ![0, 2] h3 (transpose ⟨2, ![16, 2048]⟩ [1, 0] b h2))) h4

/-- jnp's expansion of the logistic function on the host, `1 / (1 + exp (-y))` with the two ones the word of `1.0`, is
    `logistic y`. -/
theorem host_logistic (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  have h1 : Ideal.ofBits .f32 0x3F800000#32 = 1 := by
    rw [show (1 : EReal) = ((1 : ℝ) : EReal) by norm_cast]
    simp [Ideal.ofBits, Ideal.ieee, -EReal.coe_mul]; norm_num
  rw [h1]

end Cert.GroupedSilu

end
-- ==== Proof.Payload.lean ====
/-
  What one grid point's body stores, read at an element.

  The body loads a `[1, 512, 1024]` block of token rows, one expert's `[1, 1024, 2048]` weights and its `[1, 1, 2048]`
  bias row, multiplies the token rows into the weights from a zero accumulator, adds the bias row to every token row, and
  stores `y · logistic y`. At the extended reals the narrowing of the operands to sixteen bits is the identity, so entry
  `(u, p, q)` of what is stored is `y · logistic y` at `y = (∑ₖ x(0, p, k) · w(0, k, q)) + b(0, 0, q)`.
-/
import proofs.«165277_j58317065945538_1_alg».proof.Proof.Gen.KernelIdeal.Skeleton
import proofs.«165277_j58317065945538_1_alg».proof.Proof.LibRowwise
import proofs.«165277_j58317065945538_1_alg».proof.Proof.GroupedSilu
import Idealize.ShloMosaic.Lib.ValueLayout

noncomputable section

namespace Cert.KernelIdeal.Payload

open Idealize.ShloMosaic Idealize.ShloMosaic.ValueIdx Cert.KernelIdeal Cert.KernelIdeal.Gen Cert.GroupedSilu

/-- The body's product record contracts the token rows' axis 1 with the weights' axis 0 and has no batch axes: the plain
    matrix product. -/
theorem dot_plain : dot_S512x1024_S1024x2048_S512x2048_1_0_0_1_n_n = DotDims.plain 512 1024 2048 :=
  Cert.Lib.Rowwise.eq_plain _ rfl rfl rfl rfl rfl rfl

/-- The product plus the bias row, at token row `p` and output column `q`. -/
theorem sum_bias_apply (x0 : FVec Ideal S1x512x1024 .f32) (x1 : FVec Ideal S1x1024x2048 .f32) (x2 : FVec Ideal S1x1x2048 .f32)
    (p : Fin 512) (q : Fin 2048) :
    addf (matmul dot_S512x1024_S1024x2048_S512x2048_1_0_0_1_n_n none
          (truncf .bf16 (shapeCast S512x1024 x0 shapeCasts_S1x512x1024_S512x1024) bitsLt_bf16_f32)
          (truncf .bf16 (shapeCast S1024x2048 x1 shapeCasts_S1x1024x2048_S1024x2048) bitsLt_bf16_f32)
          (constant (F := Ideal) S512x2048 .f32 0x00000000#32))
        (broadcastTo S512x2048 (shapeCast S1x2048 x2 shapeCasts_S1x1x2048_S1x2048) broadcasts_S1x2048_S512x2048) (ix2 p q)
      = pre x0 x1 x2 (0 : Fin 1) p q := by
  rw [addf_apply, broadcastTo_1b_ab_apply, shapeCast_1ab_ab_apply, dot_plain]
  refine congrArg (· + x2 (ix3 (0 : Fin 1) (0 : Fin 1) q)) ?_
  refine (Cert.Lib.Rowwise.plain_matmul_zero_apply none _ _ p q).trans ?_
  refine Finset.sum_congr rfl fun k _ => ?_
  rw [truncf_apply, truncf_apply, shapeCast_1ab_ab_apply, shapeCast_1ab_ab_apply]

/-- Entry `(u, p, q)` of what the body stores. -/
theorem pay_apply (x0 : FVec Ideal S1x512x1024 .f32) (x1 : FVec Ideal S1x1024x2048 .f32) (x2 : FVec Ideal S1x1x2048 .f32)
    (u : Fin 1) (p : Fin 512) (q : Fin 2048) :
    k0_pay1 (F := Ideal) x0 x1 x2 (ix3 u p q) = silu (pre x0 x1 x2 (0 : Fin 1) p q) := by
  unfold k0_pay1
  rw [shapeCast_ab_1ab_apply, mulf_apply]
  show _ * FloatOps.logistic _ = _
  rw [sum_bias_apply]
  rfl

/-- A stored entry as an entry of the whole-array function: when token row `p` of the loaded block is row `n` of expert `e`'s
    tokens, and the loaded weights and bias row are expert `e`'s, entry `(u, p, q)` of what is stored is entry `(e, n, q)` of
    the grouped product with bias and activation. -/
theorem pay_eq_gemmSilu (X : FVec Ideal S16x4096x1024 .f32) (W : FVec Ideal S16x1024x2048 .f32) (B : FVec Ideal S16x1x2048 .f32)
    (x0 : FVec Ideal S1x512x1024 .f32) (x1 : FVec Ideal S1x1024x2048 .f32) (x2 : FVec Ideal S1x1x2048 .f32)
    (e : Fin 16) (n : Fin 4096) (u : Fin 1) (p : Fin 512) (q : Fin 2048)
    (h0 : ∀ k : Fin 1024, x0 (ix3 (0 : Fin 1) p k) = X (ix3 e n k))
    (h1 : ∀ k : Fin 1024, x1 (ix3 (0 : Fin 1) k q) = W (ix3 e k q))
    (h2 : x2 (ix3 (0 : Fin 1) (0 : Fin 1) q) = B (ix3 e (0 : Fin 1) q)) :
    k0_pay1 (F := Ideal) x0 x1 x2 (ix3 u p q) = gemmSilu X W B (ix3 e n q) := by
  rw [pay_apply, gemmSilu_ix3]
  refine congrArg silu ?_
  unfold pre
  rw [h2]
  exact congrArg (· + B (ix3 e (0 : Fin 1) q)) (Finset.sum_congr rfl fun k _ => by rw [h0 k, h1 k])

end Cert.KernelIdeal.Payload

end
-- ==== Proof.KernelValue.lean ====
/-
  The kernel program's result as one function of its argument arrays.

  The grid has one point per (expert, block of 512 token rows): sixteen experts by eight blocks. Point `(e, b)` reads token
  rows `512 b … 512 b + 511` of expert `e`, all of expert `e`'s weights and its bias row, and writes rows
  `512 b … 512 b + 511` of expert `e`'s output. So what a point writes back is its block of the grouped product with bias and
  activation of the three arrays the region finds; the blocks tile the output array, which therefore ends holding that
  function whole. Before the region the program only re-lays its arguments (a reshape, two transposes, a broadcast); after it,
  it reshapes the region's output to the result.
-/
import proofs.«165277_j58317065945538_1_alg».proof.Proof.Gen.KernelIdeal.Frame
import proofs.«165277_j58317065945538_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.GroupedSilu

variable (m : (ℓ : Loc nD τ sig) → Buf (Elt Ideal) ℓ) (ρ : Dev nD → PrngReg)

/-- The three arrays the region reads, as it finds them. -/
abbrev xArr (c : Dev nD) : FVec Ideal S16x4096x1024 .f32 := V m c main_v0
abbrev wArr (c : Dev nD) : FVec Ideal S16x1024x2048 .f32 := V m c main_v1
abbrev bArr (c : Dev nD) : FVec Ideal S16x1x2048 .f32 := V m c main_v3

theorem hz : (![0, 0, 0] : Fin 3 → Nat) = fun _ => 0 := funext fun a => by fin_cases a <;> rfl

/-- The index maps over the grid: every input window sits at the output window's expert; the token window also at its row
    block; every other block index is zero; the expert index is below 16 and the row-block index below 8. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 15 ∧ win0_3.index t (1 : Fin 3) ≤ 7 :=
  (by decide +kernel : ∀ t : Fin grid0.N, _)

/-- Every (expert, row block) is some point's. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-- Token row `p` of point `t`'s token block is row `n` of expert `e`. -/
theorem xblk_apply (c : Dev nD) (t : Fin cfg0.N) (e : Fin 16) (n : Fin 4096) (p : Fin 512) (k : Fin 1024)
    (he : e.val = win0_3.index t (0 : Fin 3)) (hn : n.val = win0_3.index t (1 : Fin 3) * 512 + p.val) :
    (iblk m c 0 t : FVec Ideal S1x512x1024 .f32) (ix3 (0 : Fin 1) p k) = xArr m c (ix3 e n k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = e.val; omega
  | ⟨1, _⟩ => show win0_0.index t (1 : Fin 3) * 512 + 1 * p.val = n.val; omega
  | ⟨2, _⟩ => show win0_0.index t (2 : Fin 3) * 1024 + 1 * k.val = k.val; omega

/-- Point `t`'s weight block is expert `e`'s weights. -/
theorem wblk_apply (c : Dev nD) (t : Fin cfg0.N) (e : Fin 16) (k : Fin 1024) (q : Fin 2048)
    (he : e.val = win0_3.index t (0 : Fin 3)) :
    (iblk m c 1 t : FVec Ideal S1x1024x2048 .f32) (ix3 (0 : Fin 1) k q) = wArr m c (ix3 e k q) := by
  obtain ⟨-, -, -, e3, e4, e5, -⟩ := idx_facts t
  unfold iblk
  rw [View.read_apply]
  show V m c main_v1 _ = V m c main_v1 _
  congr 1
  funext a
  apply Fin.ext
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 2048 + 1 * q.val = q.val; omega

/-- Point `t`'s bias block is expert `e`'s bias row. -/
theorem bblk_apply (c : Dev nD) (t : Fin cfg0.N) (e : Fin 16) (q : Fin 2048)
    (he : e.val = win0_3.index t (0 : Fin 3)) :
    (iblk m c 2 t : FVec Ideal S1x1x2048 .f32) (ix3 (0 : Fin 1) (0 : Fin 1) q) = bArr m c (ix3 e (0 : Fin 1) q) := by
  obtain ⟨-, -, -, -, -, -, e6, e7, e8, -⟩ := idx_facts t
  unfold iblk
  rw [View.read_apply]
  show V m c main_v3 _ = V m c main_v3 _
  congr 1
  funext a
  apply Fin.ext
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 2048 + 1 * q.val = q.val; omega

/-- What point `t` writes back is block `t` of the grouped product with bias and activation of the arrays the region finds. -/
theorem flushed_eq (c : Dev nD) (t : Fin cfg0.N) :
    (dats m 0 c).flushed 3 t = ((cfg0.win 3).blk t).view.read (Elt Ideal) (gemmSilu (xArr m c) (wArr m c) (bArr m c)) := by
  show (cfg0.win 3).cut (grid0.coords t) ((dats m 0 c).after 3 t) = _
  rw [after0_3]
  unfold out0_3
  rw [View.canon_unit_zero hz]
  simp only [View.ld_unit_zero (S := S1x512x1024) hz, View.ld_unit_zero (S := S1x1024x2048) hz, View.ld_unit_zero (S := S1x1x2048) hz]
  obtain ⟨-, -, -, -, -, -, -, -, -, e9, e10, e11⟩ := idx_facts t
  funext y
  obtain ⟨u, p, q, rfl⟩ : ∃ (u : Fin 1) (p : Fin 512) (q : Fin 2048), y = ix3 u p q := ⟨y 0, y 1, y 2, eq_ix3 y⟩
  have hu : u.val = 0 := by omega
  have hemb : ((cfg0.win 3).blk t).view.emb (ix3 u p q)
      = ix3 (⟨win0_3.index t (0 : Fin 3), by omega⟩ : Fin 16) (⟨win0_3.index t (1 : Fin 3) * 512 + p.val, by omega⟩ : Fin 4096) q :=
    funext fun a => Fin.ext (by
      match a with
      | ⟨0, _⟩ => show win0_3.index t (0 : Fin 3) * 1 + 1 * u.val = win0_3.index t (0 : Fin 3); omega
      | ⟨1, _⟩ => show win0_3.index t (1 : Fin 3) * 512 + 1 * p.val = win0_3.index t (1 : Fin 3) * 512 + p.val; omega
      | ⟨2, _⟩ => show win0_3.index t (2 : Fin 3) * 2048 + 1 * q.val = q.val; omega)
  show k0_pay1 (F := Ideal) (iblk m c 0 t) (iblk m c 1 t) (iblk m c 2 t) (ix3 u p q)
    = gemmSilu (xArr m c) (wArr m c) (bArr m c) (((cfg0.win 3).blk t).view.emb (ix3 u p q))
  rw [hemb]
  exact Cert.KernelIdeal.Payload.pay_eq_gemmSilu (xArr m c) (wArr m c) (bArr m c) (iblk m c 0 t) (iblk m c 1 t) (iblk m c 2 t) _ _ u p q
    (fun k => xblk_apply m c t _ _ p k rfl rfl) (fun k => wblk_apply m c t _ k q rfl) (bblk_apply m c t _ q rfl)

/-- An index of the output array is in point `t`'s block iff each coordinate is in the block's range on its axis. -/
theorem mem_blk (t : Fin cfg0.N) (i : S16x4096x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v4).slice (win0_3.rect t)).set ↔ _
  rw [View.set_slice_whole, Rect.mem_set_unit]
  exact Iff.rfl

/-- The blocks tile the output array: entry `(e, n, o)` is in the block of the point at expert `e` and row block `n / 512`. -/
theorem cover (i : S16x4096x2048.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 2048 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- The region's output array after the run. -/
theorem final (c : Dev nD) : (dats m 0 c).arrAt 3 cfg0.N = gemmSilu (xArr m c) (wArr m c) (bArr m c) :=
  (dats m 0 c).arrAt_eq_of_cover 3 (gemmSilu (xArr m c) (wArr m c) (bArr m c)) (fun t _ => flushed_eq m c t) (cover)

/-- The host lines before the region: the token rows reshaped into sixteen groups, -/
theorem xArr_eq (c : Dev nD) :
    xArr m c = shapeCast S16x4096x1024 (m ((c : Thread nD τ).loc main_arg0)) shapeCasts_S65536x1024_S16x4096x1024 := by
  show StableHlo.after hostOps0 (fun b => m (c, b)) (Proc.devRef .tc main_v0) = _
  after_results <;> rfl
/-- the weights with the expert axis moved to the front, -/
theorem wArr_eq (c : Dev nD) :
    wArr m c = transpose S16x1024x2048 [2, 0, 1] (m ((c : Thread nD τ).loc main_arg2)) transposes_S1024x2048x16_S16x1024x2048_2_0_1 := by
  show StableHlo.after hostOps0 (fun b => m (c, b)) (Proc.devRef .tc main_v1) = _
  after_results <;> rfl
/-- and the bias transposed and given a unit row axis. -/
theorem bArr_eq (c : Dev nD) :
    bArr m c = broadcastInDim S16x1x2048 ![0, 2] bcast_S16x2048_S16x1x2048_0_2
      (transpose S16x2048 [1, 0] (m ((c : Thread nD τ).loc main_arg3)) transposes_S2048x16_S16x2048_1_0) := by
  show StableHlo.after hostOps0 (fun b => m (c, b)) (Proc.devRef .tc main_v3) = _
  after_results <;> rfl

/-- The program's result as a function of its arguments. -/
abbrev result (c : Dev nD) : Buf (Elt Ideal) ((c : Thread nD τ).loc main_v5) :=
  moe shapeCasts_S65536x1024_S16x4096x1024 transposes_S1024x2048x16_S16x1024x2048_2_0_1 transposes_S2048x16_S16x2048_1_0
    bcast_S16x2048_S16x1x2048_0_2 shapeCasts_S16x4096x2048_S65536x2048
    (m ((c : Thread nD τ).loc main_arg0)) (m ((c : Thread nD τ).loc main_arg2)) (m ((c : Thread nD τ).loc main_arg3))

/-- The host line after the region reshapes the region's output array to the result. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = gemmSilu (xArr m c) (wArr m c) (bArr m c) :=
    (Pipeline.withArrays_arr spec0 launch0.win.arr_inj c (V0 m c) (fun w => (dats m 0 c).arrAt w cfg0.N) 3).trans (final m c)
  rw [hw, xArr_eq, wArr_eq, bArr_eq]
  rfl

/-- The run, read: the result at the whole computation of the arguments, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program's result as the same function of its arguments.

  The reference re-lays its arguments exactly as the kernel program does, takes one batched product over the sixteen experts,
  adds the bias row of each expert to every token row, applies `y · (1 / (1 + exp (-y)))`, and lays the groups end to end.
  Entry `(e, n, o)` of the batched product is `∑ₖ X(e, n, k) · W(e, k, o)`, the broadcast bias there is `B(e, 0, o)`, and the
  quotient is `logistic y`: entry by entry the middle of the reference is the grouped product with bias and activation.
-/
import proofs.«165277_j58317065945538_1_alg».proof.Proof.Gen.ReferenceIdeal.Read
import proofs.«165277_j58317065945538_1_alg».proof.Proof.GroupedSilu

noncomputable section

namespace Cert.ReferenceIdeal.Whole

open Idealize.ShloMosaic Idealize.ShloMosaic.ValueIdx Cert.ReferenceIdeal Cert.ReferenceIdeal.Gen Cert.ReferenceIdeal.Read Cert.GroupedSilu

/-- The product's left operand is read at `(e, n, k)`, -/
theorem lidx_eq (i : S16x4096x2048.Idx) (k : Fin 1024) : lidx_main_v4 i k = ix3 (i 0) (i 1) k :=
  funext fun a => Fin.ext (by match a with | ⟨0, _⟩ => rfl | ⟨1, _⟩ => rfl | ⟨2, _⟩ => rfl)
/-- its right operand at `(e, k, o)`, -/
theorem ridx_eq (i : S16x4096x2048.Idx) (k : Fin 1024) : ridx_main_v4 i k = ix3 (i 0) k (i 2) :=
  funext fun a => Fin.ext (by match a with | ⟨0, _⟩ => rfl | ⟨1, _⟩ => rfl | ⟨2, _⟩ => rfl)
/-- and the broadcast bias at `(e, 0, o)`. -/
theorem bidx_eq (i : S16x4096x2048.Idx) : idx_main_v5 i = ix3 (i 0) (0 : Fin 1) (i 2) :=
  funext fun a => Fin.ext (by match a with | ⟨0, _⟩ => rfl | ⟨1, _⟩ => rfl | ⟨2, _⟩ => rfl)

/-- The product plus the bias, entry by entry. -/
theorem v6_apply (x0 : (⟨S65536x1024, .f32⟩ : BufTy).Contents (Elt Ideal)) (x2 : (⟨S1024x2048x16, .f32⟩ : BufTy).Contents (Elt Ideal))
    (x3 : (⟨S2048x16, .f32⟩ : BufTy).Contents (Elt Ideal)) (i : S16x4096x2048.Idx) :
    val_main_v6 (F := Ideal) x0 x2 x3 i
      = pre (val_main_v0 (F := Ideal) x0) (val_main_v1 (F := Ideal) x2) (val_main_v3 (F := Ideal) x3) (i 0) (i 1) (i 2) := by
  rw [val_main_v6_apply, val_main_v4_apply, val_main_v5_apply]
  simp only [lidx_eq, ridx_eq, bidx_eq]
  rfl

/-- The activation's result is the grouped product with bias and activation of the re-laid arguments. -/
theorem v7_eq (x0 : (⟨S65536x1024, .f32⟩ : BufTy).Contents (Elt Ideal)) (x2 : (⟨S1024x2048x16, .f32⟩ : BufTy).Contents (Elt Ideal))
    (x3 : (⟨S2048x16, .f32⟩ : BufTy).Contents (Elt Ideal)) :
    val_main_v7 (F := Ideal) x0 x2 x3
      = gemmSilu (val_main_v0 (F := Ideal) x0) (val_main_v1 (F := Ideal) x2) (val_main_v3 (F := Ideal) x3) := by
  funext i
  rw [val_main_v7_apply, val_main_call0_v5_apply, val_main_call0_v4_apply, val_main_call0_cst_0_apply, val_main_call0_v3_apply,
    val_main_call0_v2_apply, val_main_call0_cst_apply, val_main_call0_v1_apply, val_main_call0_v0_apply, host_logistic, v6_apply]
  rfl

/-- The reference's result is the whole computation of its arguments. -/
theorem v8_eq (x0 : (⟨S65536x1024, .f32⟩ : BufTy).Contents (Elt Ideal)) (x2 : (⟨S1024x2048x16, .f32⟩ : BufTy).Contents (Elt Ideal))
    (x3 : (⟨S2048x16, .f32⟩ : BufTy).Contents (Elt Ideal)) :
    val_main_v8 (F := Ideal) x0 x2 x3
      = moe shapeCasts_S65536x1024_S16x4096x1024 transposes_S1024x2048x16_S16x1024x2048_2_0_1 transposes_S2048x16_S16x2048_1_0
          bcast_S16x2048_S16x1x2048_0_2 shapeCasts_S16x4096x2048_S65536x2048 x0 x2 x3 := by
  unfold val_main_v8
  rw [v7_eq]
  rfl

end Cert.ReferenceIdeal.Whole

end
-- ==== Proof.lean ====
/-
  Grouped matrix product with bias and `y · logistic y`, a tiled kernel against a batched reference.

  Sixteen experts each own 4096 consecutive rows of a `[65536, 1024]` token array, a `[1024, 2048]` weight matrix and a bias row
  of 2048. Both programs re-lay the arguments the same way (the token rows split into sixteen groups, the expert axis of the
  weights and of the bias moved to the front) and lay the sixteen result groups end to end at the close. In between, the
  kernel visits sixteen-by-eight grid points, one per expert and block of 512 token rows, and at each multiplies the block into
  the expert's weights from a zero accumulator, adds the expert's bias row and stores `y · logistic y`; the reference takes one
  batched product over the experts, adds the broadcast bias and multiplies by `1 / (1 + exp (-y))`.

  At the extended reals entry `(e, n, o)` of either middle is `y · logistic y` with
  `y = (∑ₖ X(e, n, k) · W(e, k, o)) + B(e, 0, o)`: the narrowing of the kernel's operands to sixteen bits is the identity, the
  product from a zero accumulator is the plain sum, the kernel's blocks tile the output, and the reference's quotient is the
  logistic function by definition. The two sums range over the same index set in the same arrangement, so no law of arithmetic
  beyond `0 + s = s` is used and the entries need not be finite.

  The kernel's frames are the generated ones; the reference's frame is its generated run with the result dropped; the
  idealization rewrote nothing, so it is preserved trivially.
-/
import proofs.«165277_j58317065945538_1_alg».proof.Defs
import proofs.«165277_j58317065945538_1_alg».proof.Proof.Gen.Kernel
import proofs.«165277_j58317065945538_1_alg».proof.Proof.Gen.Kernel.Skeleton
import proofs.«165277_j58317065945538_1_alg».proof.Proof.Gen.Kernel.Launch
import proofs.«165277_j58317065945538_1_alg».proof.Proof.Gen.Kernel.Points
import proofs.«165277_j58317065945538_1_alg».proof.Proof.Gen.Kernel.Frame
import proofs.«165277_j58317065945538_1_alg».proof.Proof.Gen.KernelIdeal
import proofs.«165277_j58317065945538_1_alg».proof.Proof.Gen.KernelIdeal.Skeleton
import proofs.«165277_j58317065945538_1_alg».proof.Proof.Gen.KernelIdeal.Launch
import proofs.«165277_j58317065945538_1_alg».proof.Proof.Gen.KernelIdeal.Points
import proofs.«165277_j58317065945538_1_alg».proof.Proof.Gen.KernelIdeal.Frame
import proofs.«165277_j58317065945538_1_alg».proof.Proof.Gen.ReferenceIdeal
import proofs.«165277_j58317065945538_1_alg».proof.Proof.Gen.Pre_finite_inputs
import proofs.«165277_j58317065945538_1_alg».proof.Proof.Gen.ReferenceIdeal.Run
import proofs.«165277_j58317065945538_1_alg».proof.Proof.Gen.ReferenceIdeal.Read
import proofs.«165277_j58317065945538_1_alg».proof.Proof.KernelValue
import proofs.«165277_j58317065945538_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the whole computation of those arguments as their
    result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Whole.v8_eq, (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
